-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x1 : Shape := ⟨3, ![64, 8192, 1]⟩
abbrev S256x64 : Shape := ⟨2, ![256, 64]⟩
abbrev S256 : Shape := ⟨1, ![256]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel
  bcast_S_S256 : S_.BroadcastsInDim S256 (![] : Fin 0 → Fin S256.rank)
  reducesTo_S256_S_d0 : S256.ReducesTo [0] S_
  bcast_S_S64x8192x1 : S_.BroadcastsInDim S64x8192x1 (![] : Fin 0 → Fin S64x8192x1.rank)
  reducesTo_S64x8192x1_S_d0_1_2 : S64x8192x1.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S64x8192x1 32) (main_arg1 : FVec F S256x64 .f32) (main_arg2 : FVec F S256 .f32) : IVec S_ 1 :=
  let main_v0 : FVec F S256x64 .f32 := Host.absf main_arg1
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_c_2 : IVec S_ 32 := constantI S_ 32 0#32
  let main_v9 : IVec S64x8192x1 32 := broadcastInDim S64x8192x1 ![] bcast_S_S64x8192x1 main_c_2
  let main_v10 : IVec S64x8192x1 1 := cmpi .sge main_arg0 main_v9
  let main_c_3 : IVec S_ 1 := constantI S_ 1 1#1
  let main_v11 : IVec S_ 1 := (fun x v => Host.reduce IntOp.andi x v reducesTo_S64x8192x1_S_d0_1_2 h_S_) main_v10 main_c_3
  let main_v12 : IVec S_ 1 := andi main_v8 main_v11
  let main_c_4 : IVec S_ 32 := constantI S_ 32 64#32
  let main_v13 : IVec S64x8192x1 32 := broadcastInDim S64x8192x1 ![] bcast_S_S64x8192x1 main_c_4
  let main_v14 : IVec S64x8192x1 1 := cmpi .slt main_arg0 main_v13
  let main_c_5 : IVec S_ 1 := constantI S_ 1 1#1
  let main_v15 : IVec S_ 1 := (fun x v => Host.reduce IntOp.andi x v reducesTo_S64x8192x1_S_d0_1_2 h_S_) main_v14 main_c_5
  fn_part1 (F := F) main_v12 main_v15
-- ==== Kernel.lean ====
abbrev S64x8192x1 : Shape := ⟨3, ![64, 8192, 1]⟩
abbrev S256x64 : Shape := ⟨2, ![256, 64]⟩
abbrev S256 : Shape := ⟨1, ![256]⟩
abbrev S_ : Shape := ⟨0, ![]⟩
abbrev S64x8192 : Shape := ⟨2, ![64, 8192]⟩
abbrev S64x64x128 : Shape := ⟨3, ![64, 64, 128]⟩
abbrev S64x256 : Shape := ⟨2, ![64, 256]⟩
abbrev S1x256 : Shape := ⟨2, ![1, 256]⟩
abbrev S64x8192x256 : Shape := ⟨3, ![64, 8192, 256]⟩
abbrev S1x64x128 : Shape := ⟨3, ![1, 64, 128]⟩
abbrev S1x8192x256 : Shape := ⟨3, ![1, 8192, 256]⟩
abbrev S64x128 : Shape := ⟨2, ![64, 128]⟩
abbrev S64x128x64 : Shape := ⟨3, ![64, 128, 64]⟩
abbrev S64x128x1 : Shape := ⟨3, ![64, 128, 1]⟩
abbrev S8192x64 : Shape := ⟨2, ![8192, 64]⟩
abbrev S8192x256 : Shape := ⟨2, ![8192, 256]⟩
abbrev S64x8192x1x256 : Shape := ⟨4, ![64, 8192, 1, 256]⟩

abbrev nBuf : Space → Nat
  | .hbm => 24
  | .vmem => 8
  | .smem => 0
  | _ => 0

abbrev bufTy : (tb : Table) → Fin (tcTables nBuf tb) → BufTy
  | .hbm, ⟨0, _⟩ => ⟨S64x8192x1, .i32⟩
  | .hbm, ⟨1, _⟩ => ⟨S256x64, .f32⟩
  | .hbm, ⟨2, _⟩ => ⟨S256, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S64x8192x1, .i32⟩
  | .hbm, ⟨7, _⟩ => ⟨S64x8192x1, .i32⟩
  | .hbm, ⟨8, _⟩ => ⟨S_, .i32⟩
  | .hbm, ⟨9, _⟩ => ⟨S64x8192x1, .i32⟩
  | .hbm, ⟨10, _⟩ => ⟨S64x8192x1, .i32⟩
  | .hbm, ⟨11, _⟩ => ⟨S64x8192, .i32⟩
  | .hbm, ⟨12, _⟩ => ⟨S64x64x128, .i32⟩
  | .hbm, ⟨13, _⟩ => ⟨S64x256, .f32⟩
  | .hbm, ⟨14, _⟩ => ⟨S64x256, .bf16⟩
  | .hbm, ⟨15, _⟩ => ⟨S64x256, .f32⟩
  | .hbm, ⟨16, _⟩ => ⟨S64x256, .f32⟩
  | .hbm, ⟨17, _⟩ => ⟨S64x256, .bf16⟩
  | .hbm, ⟨18, _⟩ => ⟨S64x256, .f32⟩
  | .hbm, ⟨19, _⟩ => ⟨S64x256, .f32⟩
  | .hbm, ⟨20, _⟩ => ⟨S64x256, .bf16⟩
  | .hbm, ⟨21, _⟩ => ⟨S1x256, .f32⟩
  | .hbm, ⟨22, _⟩ => ⟨S64x8192x256, .f32⟩
  | .hbm, ⟨23, _⟩ => ⟨S64x8192x1x256, .f32⟩
  | .local _ .vmem, ⟨0, _⟩ => ⟨S1x64x128, .i32⟩
  | .local _ .vmem, ⟨1, _⟩ => ⟨S1x64x128, .i32⟩
  | .local _ .vmem, ⟨2, _⟩ => ⟨S64x256, .bf16⟩
  | .local _ .vmem, ⟨3, _⟩ => ⟨S64x256, .bf16⟩
  | .local _ .vmem, ⟨4, _⟩ => ⟨S64x256, .bf16⟩
  | .local _ .vmem, ⟨5, _⟩ => ⟨S1x256, .f32⟩
  | .local _ .vmem, ⟨6, _⟩ => ⟨S1x8192x256, .f32⟩
  | .local _ .vmem, ⟨7, _⟩ => ⟨S1x8192x256, .f32⟩
  | _, _ => ⟨S64x8192x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![64, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S64x8192x1 : S_.BroadcastsInDim S64x8192x1 (![] : Fin 0 → Fin S64x8192x1.rank)
  shapeCasts_S64x8192x1_S64x8192 : S64x8192x1.ShapeCasts S64x8192
  shapeCasts_S64x8192_S64x64x128 : S64x8192.ShapeCasts S64x64x128
  transposes_S256x64_S64x256_1_0 : S256x64.Transposes [1, 0] S64x256
  bitsLt_bf16_f32 : FTy.bits .bf16 < FTy.bits .f32
  shapeCasts_S256_S1x256 : S256.ShapeCasts S1x256
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  iota_S64x128x64_d2_w32 : S64x128x64.Iotas .tc 32 [2]
  shapeCasts_S64x128_S64x128x1 : S64x128.ShapeCasts S64x128x1
  broadcasts_S64x128x1_S64x128x64 : S64x128x1.Broadcasts S64x128x64
  natLt_1_32 : 1 < 32
  shapeCasts_S64x128x64_S8192x64 : S64x128x64.ShapeCasts S8192x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S1x8192x256_S1x8192x256_0_0_0 : ∀ a, (![0, 0, 0] : Fin 3 → Nat) a + S1x8192x256.size a ≤ S1x8192x256.size a
  h_S1x8192x256 : 0 < S1x8192x256.numel
  shapeCasts_S1x8192x256_S8192x256 : S1x8192x256.ShapeCasts S8192x256
  shapeCasts_S8192x256_S1x8192x256 : S8192x256.ShapeCasts S1x8192x256
  bcast_S64x8192x256_S64x8192x1x256_0_1_3 : S64x8192x256.BroadcastsInDim S64x8192x1x256 (![0, 1, 3] : Fin 3 → Fin S64x8192x1x256.rank)
  dot_S8192x64_S64x256_S8192x256_1_0_0_1_n_n_wf : DotDims.WF S8192x64 S64x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S64x64x128.size a
  hwx0_0 : ∀ i : grid0.Coords, EltTy.bits .i32 = 32 ∨ (Rect.block (s := S64x64x128) S1x64x128.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .bf16 = 32 ∨ (Rect.block (s := S64x256) S64x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8192x256.size a ≤ S64x8192x256.size a
  hwx0_5 : ∀ i : grid0.Coords, EltTy.bits .f32 = 32 ∨ (Rect.block (s := S64x8192x256) S1x8192x256.size (cc0_transform_5 i) (hinb0_5 i)).WholeWords (EltTy.packing .f32)

variable [Facts₀]

def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf

abbrev win0_0 : Pipeline.Window sig grid0 :=
  Pipeline.Window.ofSpec (Memref.whole main_v2) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x8192x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x8192x1 : Shape := ⟨3, ![64, 8192, 1]⟩
abbrev S256x64 : Shape := ⟨2, ![256, 64]⟩
abbrev S256 : Shape := ⟨1, ![256]⟩
abbrev S64x8192 : Shape := ⟨2, ![64, 8192]⟩
abbrev S64x256 : Shape := ⟨2, ![64, 256]⟩
abbrev S_ : Shape := ⟨0, ![]⟩
abbrev S64x8192x256 : Shape := ⟨3, ![64, 8192, 256]⟩
abbrev S1x1x256 : Shape := ⟨3, ![1, 1, 256]⟩
abbrev S64x8192x1x256 : Shape := ⟨4, ![64, 8192, 1, 256]⟩

abbrev nBuf : Space → Nat
  | .hbm => 18
  | .vmem => 0
  | .smem => 0
  | _ => 0

abbrev bufTy : (tb : Table) → Fin (tcTables nBuf tb) → BufTy
  | .hbm, ⟨0, _⟩ => ⟨S64x8192x1, .i32⟩
  | .hbm, ⟨1, _⟩ => ⟨S256x64, .f32⟩
  | .hbm, ⟨2, _⟩ => ⟨S256, .f32⟩
  | .hbm, ⟨3, _⟩ => ⟨S64x8192, .i32⟩
  | .hbm, ⟨4, _⟩ => ⟨S64x256, .f32⟩
  | .hbm, ⟨5, _⟩ => ⟨S_, .i32⟩
  | .hbm, ⟨6, _⟩ => ⟨S64x8192, .i32⟩
  | .hbm, ⟨7, _⟩ => ⟨S64x8192, .i1⟩
  | .hbm, ⟨8, _⟩ => ⟨S_, .i32⟩
  | .hbm, ⟨9, _⟩ => ⟨S64x8192, .i32⟩
  | .hbm, ⟨10, _⟩ => ⟨S64x8192, .i32⟩
  | .hbm, ⟨11, _⟩ => ⟨S64x8192, .i32⟩
  | .hbm, ⟨12, _⟩ => ⟨S64x8192x1, .i32⟩
  | .hbm, ⟨13, _⟩ => ⟨S64x8192x256, .f32⟩
  | .hbm, ⟨14, _⟩ => ⟨S1x1x256, .f32⟩
  | .hbm, ⟨15, _⟩ => ⟨S64x8192x256, .f32⟩
  | .hbm, ⟨16, _⟩ => ⟨S64x8192x256, .f32⟩
  | .hbm, ⟨17, _⟩ => ⟨S64x8192x1x256, .f32⟩
  | _, _ => ⟨S64x8192x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S64x8192x1_S64x8192 : S64x8192x1.ShapeCasts S64x8192
  transposes_S256x64_S64x256_1_0 : S256x64.Transposes [1, 0] S64x256
  bcast_S_S64x8192 : S_.BroadcastsInDim S64x8192 (![] : Fin 0 → Fin S64x8192.rank)
  bcast_S64x8192_S64x8192x1_0_1 : S64x8192.BroadcastsInDim S64x8192x1 (![0, 1] : Fin 2 → Fin S64x8192x1.rank)
  bcast_S256_S1x1x256_2 : S256.BroadcastsInDim S1x1x256 (![2] : Fin 1 → Fin S1x1x256.rank)
  bcast_S1x1x256_S64x8192x256_0_1_2 : S1x1x256.BroadcastsInDim S64x8192x256 (![0, 1, 2] : Fin 3 → Fin S64x8192x256.rank)
  bcast_S64x8192x256_S64x8192x1x256_0_1_3 : S64x8192x256.BroadcastsInDim S64x8192x1x256 (![0, 1, 3] : Fin 3 → Fin S64x8192x1x256.rank)
  gather_S64x256_S64x8192x1_S64x8192x256_2_0_n_n_0_2_1256_wf : GatherDims.WF S64x256 S64x8192x1 S64x8192x256 [2] [0] [] [0] [] 2 ![1, 256]

variable [Facts₀]

def gather_S64x256_S64x8192x1_S64x8192x256_2_0_n_n_0_2_1256 : GatherDims S64x256 S64x8192x1 S64x8192x256 where
  offsetDims := [2]
  collapsedSliceDims := [0]
  operandBatchingDims := []
  startIndicesBatchingDims := []
  startIndexMap := [0]
  indexVectorDim := 2
  sliceSizes := ![1, 256]
  wf := gather_S64x256_S64x8192x1_S64x8192x256_2_0_n_n_0_2_1256_wf

class Facts : Prop extends Facts₀ where

variable [Facts]
-- ==== Proof.Spec.lean ====
/-
  The specification both programs meet, and the scalar facts that join them to it.

  The operator is an embedding lookup written as one_hot(ids, 64) @ W.T + b: for a class id in [0, 64) the product
  with the one-hot row picks row id of W.T, that is column id of W, and the bias is added:
      out[p, t, 0, o] = W[o, ids[p, t, 0]] + b[o].
  One side reaches it through an exact 0/1 row times the table (a sum over 64 classes with one nonzero term), the other
  through an index into the table.  Both first pass the id through a guard that is the identity on [0, 64): a clip to
  [0, 63] on one side; python's wrap of a negative index, then the gather's clamp, on the other.
  The table enters one side three times, as W, W - W and (W - W) - (W - W): the last two vanish exactly where W is
  finite, which is where the finiteness of the inputs is used.
-/
import Idealize.ShloMosaic.PureOps.Ideal
import Idealize.ShloMosaic.Lib.ValueIdx
import Idealize.ShloMosaic.Lib.Affine

noncomputable section

open scoped BigOperators

namespace Cert.Embed

open Idealize.ShloMosaic Idealize.ShloMosaic.ValueIdx

/-! ## Class ids in range -/

/-- A class id word is in range when, read signed, it lies in [0, 64). -/
def InRange (w : BitVec 32) : Prop := 0 ≤ w.toInt ∧ w.toInt < 64

theorem InRange.toInt_eq {w : BitVec 32} (h : InRange w) : w.toInt = (w.toNat : Int) := by
  have h0 := h.1
  rw [BitVec.toInt_eq_toNat_cond] at h0 ⊢
  have := w.isLt
  split at h0 <;> split <;> omega

theorem InRange.toNat_lt {w : BitVec 32} (h : InRange w) : w.toNat < 64 := by
  have e := h.toInt_eq
  have := h.2
  omega

/-- The row of the transposed table a class id selects (total: an id is reduced mod 64; in range it is the id). -/
def rowOf (w : BitVec 32) : Fin 64 := ⟨w.toNat % 64, Nat.mod_lt _ (by decide)⟩

theorem rowOf_of_lt {w : BitVec 32} (h : w.toNat < 64) : rowOf w = ⟨w.toNat, h⟩ :=
  Fin.ext (Nat.mod_eq_of_lt h)

/-- A clip to [0, 63], spelt minimum 63 (maximum 0 w), leaves an in-range id alone. -/
theorem clip_id {w : BitVec 32} (h : InRange w) : IntOp.minsi 63#32 (IntOp.maxsi 0#32 w) = w := by
  have e := h.toInt_eq
  have hl := h.toNat_lt
  have h0 : (0#32 : BitVec 32).toInt = 0 := by decide
  have h63 : (63#32 : BitVec 32).toInt = 63 := by decide
  have hmax : IntOp.maxsi 0#32 w = w := by
    unfold IntOp.maxsi
    split <;> rename_i hc <;> simp only [BitVec.slt, e, h0, decide_eq_true_eq] at hc
    · apply BitVec.eq_of_toNat_eq; simp only [BitVec.toNat_ofNat]; omega
    · rfl
  rw [hmax]
  unfold IntOp.minsi
  split <;> rename_i hc <;> simp only [BitVec.slt, e, h63, decide_eq_true_eq] at hc
  · omega
  · rfl

/-- The wrap of a negative index, select (w < 0) (w + 64) w, leaves an in-range id alone. -/
theorem wrap_id {w : BitVec 32} (h : InRange w) :
    Scalar.select (IntOp.cmpi .slt w 0#32) (IntOp.addi w 64#32) w = w := by
  have hc : IntOp.cmpi .slt w 0#32 ≠ 1#1 := by
    intro hc
    rw [IntOp.cmpi_slt] at hc
    have h0 : (0#32 : BitVec 32).toInt = 0 := by decide
    have := h.1
    omega
  rw [eq_zero_of_ne_one hc]
  exact select_zero _ _

/-- The gather's clamp of a signed start index into [0, 63] leaves an in-range id alone. -/
theorem clamp_id {w : BitVec 32} (h : InRange w) : min w.toInt.toNat (64 - 1) = w.toNat := by
  have e := h.toInt_eq
  have hl := h.toNat_lt
  rw [e, Int.toNat_natCast]
  omega

/-! ## The one-hot row -/

/-- One entry of the one-hot row: the id compared with class k, widened to a word and converted, is the real 1 at the
    id's own class and 0 elsewhere. -/
theorem onehot_entry (w : BitVec 32) (k : Fin 64) :
    (FloatOps.sitofp (F := Ideal) .f32 ((IntOp.cmpi .eq w (BitVec.ofNat 32 k.val)).setWidth 32) : EReal)
      = if w.toNat = k.val then 1 else 0 := by
  have hk : k.val < 2 ^ 32 := lt_trans k.isLt (by decide)
  by_cases hw : w.toNat = k.val
  · have hwk : w = BitVec.ofNat 32 k.val := by
      apply BitVec.eq_of_toNat_eq; rw [BitVec.toNat_ofNat, Nat.mod_eq_of_lt hk]; exact hw
    rw [if_pos hw, (IntOp.cmpi_eq).mpr hwk]
    show (((BitVec.setWidth 32 (1#1 : BitVec 1)).toInt : ℝ) : EReal) = 1
    have : (BitVec.setWidth 32 (1#1 : BitVec 1)).toInt = 1 := by decide
    rw [this]; norm_num
  · have hne : ¬ w = BitVec.ofNat 32 k.val := by
      intro hwk; apply hw; rw [hwk, BitVec.toNat_ofNat, Nat.mod_eq_of_lt hk]
    have hz : IntOp.cmpi .eq w (BitVec.ofNat 32 k.val) = 0#1 := by
      have h1 : IntOp.cmpi .eq w (BitVec.ofNat 32 k.val) ≠ 1#1 := fun h1 => hne ((IntOp.cmpi_eq).mp h1)
      revert h1
      generalize IntOp.cmpi .eq w (BitVec.ofNat 32 k.val) = c
      revert c; decide
    rw [if_neg hw, hz]
    show (((BitVec.setWidth 32 (0#1 : BitVec 1)).toInt : ℝ) : EReal) = 0
    have : (BitVec.setWidth 32 (0#1 : BitVec 1)).toInt = 0 := by decide
    rw [this]; norm_num

/-- The one-hot row of an id below 64 times a column of the table is the column's entry at the id. -/
theorem onehot_sum {w : BitVec 32} (h : w.toNat < 64) (f : Fin 64 → EReal) :
    ∑ k : Fin 64, (if w.toNat = k.val then (1 : EReal) else 0) * f k = f ⟨w.toNat, h⟩ := by
  rw [Finset.sum_eq_single (⟨w.toNat, h⟩ : Fin 64)]
  · rw [if_pos rfl, one_mul]
  · intro k _ hk
    rw [if_neg (fun e => hk (Fin.ext e.symm)), zero_mul]
  · intro hn; exact absurd (Finset.mem_univ _) hn

/-! ## Finite table entries -/

/-- A finite extended real less itself is zero. -/
theorem sub_self_of_ne {x : EReal} (ht : x ≠ ⊤) (hb : x ≠ ⊥) : x - x = 0 := EReal.sub_self ht hb

/-! ## The specification -/

abbrev SIds : Shape := ⟨3, ![64, 8192, 1]⟩
abbrev STable : Shape := ⟨2, ![256, 64]⟩
abbrev SBias : Shape := ⟨1, ![256]⟩
abbrev SOut : Shape := ⟨4, ![64, 8192, 1, 256]⟩

/-- out[p, t, 0, o] = W[o, ids[p, t, 0]] + b[o]. -/
def embed (ids : IVec SIds 32) (W : FVec Ideal STable .f32) (b : FVec Ideal SBias .f32) : FVec Ideal SOut .f32 :=
  fun i => W (ix2 (i 3) (rowOf (ids (ix3 (i 0) (i 1) (0 : Fin 1))))) + b (ix1 (i 3))

end Cert.Embed

end
-- ==== Proof.PreFacts.lean ====
/-
  What the precondition says, element by element.

  The precondition is a conjunction of four all-reductions: |W| < +inf everywhere, |b| < +inf everywhere, ids >= 0
  everywhere and ids < 64 everywhere.  Read back at one element: every table entry is a real number, and every class
  id, read signed, lies in [0, 64).  (The bias's finiteness is not needed: the bias is added last on both sides.)
-/
import proofs.«422011_j21354577396017_3_alg».proof.Pre_finite_inputs
import proofs.«422011_j21354577396017_3_alg».proof.Proof.Spec
import Idealize.ShloMosaic.Lib.ReduceAll
import Idealize.ShloMosaic.Lib.StableHlo.Predicate

noncomputable section

namespace Cert.Embed

open Idealize.ShloMosaic Idealize.ShloMosaic.ValueIdx Cert.Pre_finite_inputs

/-- An extended real whose absolute value max x (-x) is below +inf (the f32 pattern 0x7F800000) is neither
    infinity. -/
theorem finite_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  have hlt : max x (-x) < ⊤ := by
    have := (StableHlo.Predicate.ofBool_eq_one_iff _).mp h
    simpa using this
  constructor
  · rintro rfl; simp at hlt
  · rintro rfl; simp at hlt

instance : Subsingleton Cert.Pre_finite_inputs.S_.Idx := ⟨fun a b => funext fun d => d.elim0⟩

variable [Cert.Pre_finite_inputs.Facts]

/-- Under the precondition every table entry is finite and every class id is in range. -/
theorem facts_of_pre (ids : IVec S64x8192x1 32) (W : FVec Ideal S256x64 .f32) (b : FVec Ideal S256 .f32)
    (h : Cert.Pre_finite_inputs.fn (F := Ideal) ids W b = fun _ => 1#1) :
    (∀ i, W i ≠ ⊤ ∧ W i ≠ ⊥) ∧ (∀ i, InRange (ids i)) := by
  have h0 := congrFun h ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨hW, -⟩ := IntOp.andi_eq_one.mp h12
  refine ⟨fun i => ?_, fun i => ⟨?_, ?_⟩⟩
  · have hi := Host.reduce_andi_all _ _ _ _ ix0 hW i
    exact finite_of_abs_lt (W i) hi
  · have hi := Host.reduce_andi_all _ _ _ _ ix0 h3 i
    have := (IntOp.cmpi_sge (x := ids i) (y := 0#32)).mp hi
    have h0' : (0#32 : BitVec 32).toInt = 0 := by decide
    omega
  · have hi := Host.reduce_andi_all _ _ _ _ ix0 h4 i
    have := (IntOp.cmpi_slt (x := ids i) (y := 64#32)).mp hi
    have h64 : (64#32 : BitVec 32).toInt = 64 := by decide
    omega

end Cert.Embed

end
-- ==== Proof.LibGatherRows.lean ====
/-
  A gather of whole rows, read at one element.

  jnp's x[idx] for a table x : [N, D] and an integer array idx : [R, C] lowers to a stablehlo.gather whose start
  indices are idx as [R, C, 1], with offset_dims [2], collapsed_slice_dims [0], start_index_map [0],
  index_vector_dim 2 and slice_sizes [1, D].  Result element (r, q, o) is the table's row number idx[r, q, 0], read as
  a signed integer and clamped into [0, N - 1] (StableHLO clamps every start index), at column o.
-/
import Idealize.ShloMosaic.Lib.ValueIdx

noncomputable section

namespace Cert.GatherRows

open Idealize.ShloMosaic Idealize.ShloMosaic.ValueIdx

variable {α : Type}

/-- The dimension numbers of a row gather from [N, D] along start indices [R, C, 1] into [R, C, D]. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- The row gather at (r, q, o): row min(idx[r, q, 0], N - 1) of the table (the index read signed, a negative one as
    row 0), column o. -/
theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (q : Fin C) (o : Fin D) :
    Host.gather (rowsDims N D R C wf) x idx (ix3 r q o)
      = x (ix2 ⟨min (idx (ix3 r q (0 : Fin 1))).toInt.toNat (N - 1), by omega⟩ o) := by
  unfold Host.gather
  congr 1
  funext a
  refine Fin.ext ?_
  match a with
  | ⟨0, _⟩ =>
    show (rowsDims N D R C wf).start (ix3 r q o) idx 0 + (rowsDims N D R C wf).batchCoord (ix3 r q o) 0
        + (rowsDims N D R C wf).offCoord (ix3 r q o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 r q o) ⟨List.idxOf (0 : Fin 2) (rowsDims N D R C wf).startIndexMap,
        List.idxOf_lt_length_iff.2 (List.mem_singleton.mpr rfl)⟩ = ix3 r q (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start (ix3 r q o) idx 1 + (rowsDims N D R C wf).batchCoord (ix3 r q o) 1
        + (rowsDims N D R C wf).offCoord (ix3 r q o) 1 = o.val
    rw [GatherDims.batchCoord_eq_zero _ _ _ List.not_mem_nil]
    have hs : (rowsDims N D R C wf).start (ix3 r q o) idx 1 = 0 := by
      unfold GatherDims.start
      rw [dif_neg (fun h => Nat.one_ne_zero (Fin.val_eq_of_eq (List.mem_singleton.mp h)))]
    rw [hs]
    simp only [Nat.add_zero, Nat.zero_add]
    rfl

end Cert.GatherRows

end
-- ==== Proof.RefValue.lean ====
/-
  The reference computes the specification.

  Its program: squeeze the ids to [64, 8192]; wrap a negative id by adding 64; gather rows of the transposed table
  W.T : [64, 256] along the ids (each start index clamped into [0, 63]); add the bias broadcast along the last axis;
  insert the unit axis.  For an id in [0, 64) the wrap and the clamp are the identity, so element (p, t, 0, o) is
  W.T[id, o] + b[o] = W[o, id] + b[o] with id = ids[p, t, 0].
-/
import proofs.«422011_j21354577396017_3_alg».proof.Proof.Gen.ReferenceIdeal.Read
import proofs.«422011_j21354577396017_3_alg».proof.Proof.Spec
import proofs.«422011_j21354577396017_3_alg».proof.Proof.LibGatherRows

noncomputable section

namespace Cert.ReferenceIdeal.RefValue

open Cert.ReferenceIdeal Cert.ReferenceIdeal.Gen Cert.ReferenceIdeal.Read
open Idealize.ShloMosaic Idealize.ShloMosaic.ValueIdx Cert.Embed

/-- The start index the gather reads for (p, t): the squeezed id, wrapped if negative, put back as a column.  For an
    id in range it is the id itself. -/
theorem start_eq (ids : IVec S64x8192x1 32) (hr : ∀ i, InRange (ids i)) (p : Fin 64) (t : Fin 8192) :
    val_main_v7 (F := Ideal) ids (ix3 p t (0 : Fin 1)) = ids (ix3 p t (0 : Fin 1)) := by
  have h7 : idx_main_v7 (ix3 p t (0 : Fin 1)) = ix2 p t := by
    funext a; match a with | ⟨0, _⟩ => rfl | ⟨1, _⟩ => rfl
  have h0 : idx_main_v0 (ix2 p t) = ix3 p t (0 : Fin 1) := by
    funext a; apply Fin.ext
    have hp : p.val < 64 := p.isLt
    have ht : t.val < 8192 := t.isLt
    match a with
    | ⟨0, _⟩ => show (p.val * 8192 + t.val) / 8192 = p.val; omega
    | ⟨1, _⟩ => show (p.val * 8192 + t.val) / 1 % 8192 = t.val; omega
    | ⟨2, _⟩ => rfl
  rw [val_main_v7_apply, h7, val_main_v6_apply, val_main_v3_apply, val_main_v5_apply, val_main_v0_apply, h0,
    val_main_v2_apply, val_main_c_apply, val_main_v4_apply, val_main_c_0_apply]
  exact wrap_id (hr _)

/-- The gathered element (p, t, o) is the table's entry W[o, id]. -/
theorem gathered (ids : IVec S64x8192x1 32) (W : FVec Ideal S256x64 .f32) (hr : ∀ i, InRange (ids i))
    (p : Fin 64) (t : Fin 8192) (o : Fin 256) :
    val_main_v8 (F := Ideal) ids W (ix3 p t o) = W (ix2 o (rowOf (ids (ix3 p t (0 : Fin 1))))) := by
  unfold val_main_v8
  refine (Cert.GatherRows.gather_rows_apply (N := 64) (D := 256) (R := 64) (C := 8192) (by decide)
    gather_S64x256_S64x8192x1_S64x8192x256_2_0_n_n_0_2_1256_wf (val_main_v1 (F := Ideal) W)
    (val_main_v7 (F := Ideal) ids) p t o).trans ?_
  rw [val_main_v1_apply]
  refine congrArg W ?_
  funext a
  apply Fin.ext
  match a with
  | ⟨0, _⟩ => rfl
  | ⟨1, _⟩ =>
    show min (val_main_v7 (F := Ideal) ids (ix3 p t (0 : Fin 1))).toInt.toNat (64 - 1)
      = (ids (ix3 p t (0 : Fin 1))).toNat % 64
    rw [start_eq ids hr p t, clamp_id (hr _), Nat.mod_eq_of_lt (hr _).toNat_lt]

/-- The reference's result is the specification, for class ids in range. -/
theorem result_eq (ids : IVec S64x8192x1 32) (W : FVec Ideal S256x64 .f32) (b : FVec Ideal S256 .f32)
    (hr : ∀ i, InRange (ids i)) :
    val_main_v12 (F := Ideal) ids W b = embed ids W b := by
  funext i
  obtain ⟨p, t, z, o, rfl⟩ : ∃ (p : Fin 64) (t : Fin 8192) (z : Fin 1) (o : Fin 256), i = ix4 p t z o :=
    ⟨i 0, i 1, i 2, i 3, eq_ix4 i⟩
  have h12 : idx_main_v12 (ix4 p t z o) = ix3 p t o := by
    funext a; match a with | ⟨0, _⟩ => rfl | ⟨1, _⟩ => rfl | ⟨2, _⟩ => rfl
  have hb : idx_main_v9 (idx_main_v10 (ix3 p t o)) = ix1 o := by
    funext a; match a with | ⟨0, _⟩ => rfl
  rw [val_main_v12_apply, h12, val_main_v11_apply, val_main_v10_apply, val_main_v9_apply, hb,
    gathered ids W hr p t o]
  rfl

end Cert.ReferenceIdeal.RefValue

end
-- ==== Proof.KernelPayload.lean ====
/-
  What the kernel body stores, at one element.

  At a grid point the body loads a [1, 64, 128] block of class ids (8192 ids, id number r at (0, r / 128, r % 128)),
  three [64, 256] tables and a [1, 256] bias row.  It builds the 0/1 matrix E : [8192, 64], E[r, k] = 1 iff id r is class
  k, multiplies it with each table into a zero accumulator, adds the three products and the bias row, and stores the
  [1, 8192, 256] result.  Since row r of E has its single 1 at the id's class, a product's element (r, o) is the table's
  entry (id r, o); so the stored element (0, r, o) is
      T1[id r, o] + T2[id r, o] + T3[id r, o] + bias[0, o].
-/
import proofs.«422011_j21354577396017_3_alg».proof.Proof.Gen.KernelIdeal.Skeleton
import proofs.«422011_j21354577396017_3_alg».proof.Proof.Spec
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx Cert.Embed

/-! ## A product with a [64, 256] table at one element -/

theorem lhs_0 (i : S8192x256.Idx) (q : dot_S8192x64_S64x256_S8192x256_1_0_0_1_n_n.contr.Idx) :
    (dot_S8192x64_S64x256_S8192x256_1_0_0_1_n_n.lhsIdx i q 0).val = (i 0).val := by
  unfold DotDims.lhsIdx
  rw [dif_neg (show ¬(0 : Fin S8192x64.rank) ∈ dot_S8192x64_S64x256_S8192x256_1_0_0_1_n_n.lhsBatch by decide),
    dif_pos (show (0 : Fin S8192x64.rank) ∈ dot_S8192x64_S64x256_S8192x256_1_0_0_1_n_n.lhsNonContracting by decide)]
  rfl
theorem lhs_1 (i : S8192x256.Idx) (q : dot_S8192x64_S64x256_S8192x256_1_0_0_1_n_n.contr.Idx) :
    (dot_S8192x64_S64x256_S8192x256_1_0_0_1_n_n.lhsIdx i q 1).val = (q ⟨0, by decide⟩).val :=
  dot_S8192x64_S64x256_S8192x256_1_0_0_1_n_n.lhsIdx_val_of_single rfl i q
theorem rhs_0 (i : S8192x256.Idx) (q : dot_S8192x64_S64x256_S8192x256_1_0_0_1_n_n.contr.Idx) :
    (dot_S8192x64_S64x256_S8192x256_1_0_0_1_n_n.rhsIdx i q 0).val = (q ⟨0, by decide⟩).val :=
  dot_S8192x64_S64x256_S8192x256_1_0_0_1_n_n.rhsIdx_val_of_single rfl i q
theorem rhs_1 (i : S8192x256.Idx) (q : dot_S8192x64_S64x256_S8192x256_1_0_0_1_n_n.contr.Idx) :
    (dot_S8192x64_S64x256_S8192x256_1_0_0_1_n_n.rhsIdx i q 1).val = (i 1).val := by
  unfold DotDims.rhsIdx
  rw [dif_neg (show ¬(1 : Fin S64x256.rank) ∈ dot_S8192x64_S64x256_S8192x256_1_0_0_1_n_n.rhsBatch by decide),
    dif_pos (show (1 : Fin S64x256.rank) ∈ dot_S8192x64_S64x256_S8192x256_1_0_0_1_n_n.rhsNonContracting by decide)]
  rfl

/-- One product of the body: an [8192, 64] matrix times a [64, 256] table, into a zero accumulator. -/
def product (A : FVec Ideal S8192x64 .bf16) (x : FVec Ideal S64x256 .bf16) : FVec Ideal S8192x256 .f32 :=
  matmul dot_S8192x64_S64x256_S8192x256_1_0_0_1_n_n none A x (constant S8192x256 .f32 0x00000000#32)

/-- Its element (r, o) is the sum over the 64 classes of A[r, k] * x[k, o]. -/
theorem product_at (A : FVec Ideal S8192x64 .bf16) (x : FVec Ideal S64x256 .bf16) (r : Fin 8192) (o : Fin 256) :
    product A x (ix2 r o) = ∑ k : Fin 64, A (ix2 r k) * x (ix2 k o) := by
  unfold product
  simp only [matmul]
  rw [Ideal.matmul_constant_zero_apply,
    ← Equiv.sum_comp (ValueIdx.contrEquiv1 dot_S8192x64_S64x256_S8192x256_1_0_0_1_n_n 64 rfl rfl).symm]
  refine Finset.sum_congr rfl fun k _ => ?_
  have hk := ValueIdx.contrEquiv1_symm_val dot_S8192x64_S64x256_S8192x256_1_0_0_1_n_n 64 rfl rfl k
  have el : dot_S8192x64_S64x256_S8192x256_1_0_0_1_n_n.lhsIdx (ix2 r o)
      ((ValueIdx.contrEquiv1 dot_S8192x64_S64x256_S8192x256_1_0_0_1_n_n 64 rfl rfl).symm k) = ix2 r k :=
    funext fun a => Fin.ext (by
      match a with
      | ⟨0, _⟩ => exact lhs_0 _ _
      | ⟨1, _⟩ => exact (lhs_1 _ _).trans hk)
  have er : dot_S8192x64_S64x256_S8192x256_1_0_0_1_n_n.rhsIdx (ix2 r o)
      ((ValueIdx.contrEquiv1 dot_S8192x64_S64x256_S8192x256_1_0_0_1_n_n 64 rfl rfl).symm k) = ix2 k o :=
    funext fun a => Fin.ext (by
      match a with
      | ⟨0, _⟩ => exact (rhs_0 _ _).trans hk
      | ⟨1, _⟩ => exact rhs_1 _ _)
  rw [el, er]

/-! ## The 0/1 matrix -/

/-- The position of id number r in the [1, 64, 128] block. -/
abbrev idPos (r : Fin 8192) : S1x64x128.Idx :=
  ix3 (0 : Fin 1) (⟨r.val / 128, by have := r.isLt; omega⟩ : Fin 64) (⟨r.val % 128, Nat.mod_lt _ (by decide)⟩ : Fin 128)

/-- The ids viewed [64, 128], as a column [64, 128, 1], broadcast along the 64 classes: at (g, l, k) it is the block's
    (0, g, l). -/
theorem ids_at (x0 : Vec Ideal S1x64x128 .i32) (h1 : S1x64x128.ShapeCasts S64x128) (h2 : S64x128.ShapeCasts S64x128x1)
    (h3 : S64x128x1.Broadcasts S64x128x64) (g : Fin 64) (l : Fin 128) (k : Fin 64) :
    broadcastTo S64x128x64 (shapeCast S64x128x1 (shapeCast S64x128 x0 h1) h2) h3 (ix3 g l k)
      = x0 (ix3 (0 : Fin 1) g l) := by
  refine (broadcastTo_apply _ h3 (ix3 g l k) (ix3 g l (0 : Fin 1)) ?_).trans ?_
  · intro a
    match a with
    | ⟨0, _⟩ => show g.val = if (64 : Nat) = 1 then 0 else g.val; rw [if_neg (by decide)]
    | ⟨1, _⟩ => show l.val = if (128 : Nat) = 1 then 0 else l.val; rw [if_neg (by decide)]
    | ⟨2, _⟩ => show 0 = if (1 : Nat) = 1 then 0 else k.val; rw [if_pos rfl]
  refine (shapeCast_apply _ h2 (ix3 g l (0 : Fin 1)) (ix2 g l) ?_).trans ?_
  · rw [Shape.rowMajor_val_two, Shape.rowMajor_val_three]
    show g.val * 128 + l.val = (g.val * 128 + l.val) * 1 + 0
    omega
  refine shapeCast_apply _ h1 (ix2 g l) (ix3 (0 : Fin 1) g l) ?_
  rw [Shape.rowMajor_val_three, Shape.rowMajor_val_two]
  show (0 * 64 + g.val) * 128 + l.val = g.val * 128 + l.val
  omega

/-- The 0/1 matrix the body builds from the id block: compare each id with each class number, widen, convert. -/
def onehot (x0 : Vec Ideal S1x64x128 .i32) : FVec Ideal S8192x64 .bf16 :=
  have v1 : IVec S64x128 32 := shapeCast S64x128 x0 shapeCasts_S1x64x128_S64x128
  have v2 : IVec S64x128x64 32 := iota .tc S64x128x64 32 [2] iota_S64x128x64_d2_w32
  have v3 : IVec S64x128x1 32 := shapeCast S64x128x1 v1 shapeCasts_S64x128_S64x128x1
  have v4 : IVec S64x128x64 32 := broadcastTo S64x128x64 v3 broadcasts_S64x128x1_S64x128x64
  have v5 : IVec S64x128x64 1 := cmpi .eq v4 v2
  have v6 : IVec S64x128x64 32 := extui 32 v5 natLt_1_32
  have v7 : FVec Ideal S64x128x64 .f32 := sitofp .f32 v6
  have v8 : FVec Ideal S64x128x64 .bf16 := truncf .bf16 v7 bitsLt_bf16_f32
  shapeCast S8192x64 v8 shapeCasts_S64x128x64_S8192x64

/-- Its entry (r, k): 1 iff id number r is class k. -/
theorem onehot_at (x0 : Vec Ideal S1x64x128 .i32) (r : Fin 8192) (k : Fin 64) :
    onehot x0 (ix2 r k) = if (x0 (idPos r)).toNat = k.val then 1 else 0 := by
  have hr : r.val < 8192 := r.isLt
  unfold onehot
  refine (shapeCast_apply _ shapeCasts_S64x128x64_S8192x64 (ix2 r k)
    (ix3 (⟨r.val / 128, by omega⟩ : Fin 64) (⟨r.val % 128, Nat.mod_lt _ (by decide)⟩ : Fin 128) k) ?_).trans ?_
  · rw [Shape.rowMajor_val_three, Shape.rowMajor_val_two]
    show (r.val / 128 * 128 + r.val % 128) * 64 + k.val = r.val * 64 + k.val
    omega
  show FloatOps.sitofp (F := Ideal) .f32 ((IntOp.cmpi .eq
      (broadcastTo S64x128x64 (shapeCast S64x128x1 (shapeCast S64x128 x0 shapeCasts_S1x64x128_S64x128)
        shapeCasts_S64x128_S64x128x1) broadcasts_S64x128x1_S64x128x64
        (ix3 (⟨r.val / 128, by omega⟩ : Fin 64) (⟨r.val % 128, Nat.mod_lt _ (by decide)⟩ : Fin 128) k))
      (iota .tc S64x128x64 32 [2] iota_S64x128x64_d2_w32
        (ix3 (⟨r.val / 128, by omega⟩ : Fin 64) (⟨r.val % 128, Nat.mod_lt _ (by decide)⟩ : Fin 128) k))).setWidth 32) = _
  rw [ids_at, iota_single_apply]
  exact onehot_entry _ k

/-- Row r of the 0/1 matrix times a table picks the table's row at id number r, for an id below 64. -/
theorem select_at (x0 : Vec Ideal S1x64x128 .i32) (x : FVec Ideal S64x256 .bf16) (r : Fin 8192) (o : Fin 256)
    (h : (x0 (idPos r)).toNat < 64) :
    product (onehot x0) x (ix2 r o) = x (ix2 (⟨(x0 (idPos r)).toNat, h⟩ : Fin 64) o) := by
  rw [product_at]
  simp only [onehot_at]
  exact onehot_sum h (fun k => x (ix2 k o))

/-! ## The stored value -/

/-- The body's stored value over the named pieces. -/
theorem pay_eq (x0 : Vec Ideal S1x64x128 .i32) (x1 x2 x3 : Vec Ideal S64x256 .bf16) (x4 : Vec Ideal S1x256 .f32) :
    k0_pay1 (F := Ideal) x0 x1 x2 x3 x4
      = shapeCast S1x8192x256 (addf (addf (addf
          (product (onehot x0) (shapeCast S64x256 x1 shapeCasts_S64x256_S64x256))
          (product (onehot x0) (shapeCast S64x256 x2 shapeCasts_S64x256_S64x256)))
          (product (onehot x0) (shapeCast S64x256 x3 shapeCasts_S64x256_S64x256)))
          (broadcastTo S8192x256 (shapeCast S1x256 x4 shapeCasts_S1x256_S1x256) broadcasts_S1x256_S8192x256))
          shapeCasts_S8192x256_S1x8192x256 := rfl

/-- The stored element (0, r, o), for an id below 64. -/
theorem pay_at (x0 : Vec Ideal S1x64x128 .i32) (x1 x2 x3 : Vec Ideal S64x256 .bf16) (x4 : Vec Ideal S1x256 .f32)
    (r : Fin 8192) (o : Fin 256) (h : (x0 (idPos r)).toNat < 64) :
    k0_pay1 (F := Ideal) x0 x1 x2 x3 x4 (ix3 (0 : Fin 1) r o)
      = x1 (ix2 (⟨(x0 (idPos r)).toNat, h⟩ : Fin 64) o) + x2 (ix2 (⟨(x0 (idPos r)).toNat, h⟩ : Fin 64) o)
        + x3 (ix2 (⟨(x0 (idPos r)).toNat, h⟩ : Fin 64) o) + x4 (ix2 (0 : Fin 1) o) := by
  rw [pay_eq]
  refine (shapeCast_apply _ shapeCasts_S8192x256_S1x8192x256 (ix3 (0 : Fin 1) r o) (ix2 r o) ?_).trans ?_
  · rw [Shape.rowMajor_val_two, Shape.rowMajor_val_three]
    show r.val * 256 + o.val = (0 * 8192 + r.val) * 256 + o.val
    omega
  have hb : broadcastTo S8192x256 (shapeCast S1x256 x4 shapeCasts_S1x256_S1x256) broadcasts_S1x256_S8192x256 (ix2 r o)
      = x4 (ix2 (0 : Fin 1) o) := by
    refine (broadcastTo_apply _ broadcasts_S1x256_S8192x256 (ix2 r o) (ix2 (0 : Fin 1) o) ?_).trans ?_
    · intro a
      match a with
      | ⟨0, _⟩ => show 0 = if (1 : Nat) = 1 then 0 else r.val; rw [if_pos rfl]
      | ⟨1, _⟩ => show o.val = if (256 : Nat) = 1 then 0 else o.val; rw [if_neg (by decide)]
    rw [shapeCast_self]
  rw [addf_apply, addf_apply, addf_apply, hb, select_at x0 _ r o h, select_at x0 _ r o h, select_at x0 _ r o h,
    shapeCast_self, shapeCast_self, shapeCast_self]

end Cert.KernelIdeal.Payload

end
-- ==== Proof.KernelEntry.lean ====
/-
  What the region finds in the arrays it stages, element by element.

  Before the region the host clips the ids to [0, 63] and lays them out [64, 64, 128] (id (p, t) at (p, t / 128, t % 128));
  transposes the table to W.T : [64, 256] and splits it into three terms T1 = W.T, T2 = W.T - T1, T3 = T2 - T2 (the
  changes of float format between them are the identity on extended reals); and views the bias as a [1, 256] row.
  For an id in [0, 64) the clip is the identity; for a finite table T2 and T3 are zero.
-/
import proofs.«422011_j21354577396017_3_alg».proof.Proof.Gen.KernelIdeal.Frame
import proofs.«422011_j21354577396017_3_alg».proof.Proof.Spec
import Idealize.ShloMosaic.Lib.Pipeline.Value
import Idealize.ShloMosaic.Lib.StableHlo.Run

noncomputable section

namespace Cert.KernelIdeal.Entry

open Cert.KernelIdeal Cert.KernelIdeal.Gen
open Idealize.ShloMosaic Idealize.ShloMosaic.TcCoe Idealize.SL.Sem Idealize.ShloMosaic.StableHlo
open Idealize.ShloMosaic.ValueIdx Cert.Embed

variable (m : (ℓ : Loc nD τ sig) → Buf (Elt Ideal) ℓ)

/-- The three arguments on core c. -/
abbrev idsArg (c : Dev nD) : IVec S64x8192x1 32 := m ((c : Thread nD τ).loc main_arg0)
abbrev tableArg (c : Dev nD) : FVec Ideal S256x64 .f32 := m ((c : Thread nD τ).loc main_arg1)
abbrev biasArg (c : Dev nD) : FVec Ideal S256 .f32 := m ((c : Thread nD τ).loc main_arg2)

/-- The transposed table. -/
abbrev tableT (c : Dev nD) : FVec Ideal S64x256 .f32 :=
  transpose S64x256 [1, 0] (tableArg m c) transposes_S256x64_S64x256_1_0

/-! ## The arrays as the host operations' terms -/

theorem V_ids (c : Dev nD) : (V m c main_v2 : S64x64x128.Idx → BitVec 32) =
    shapeCast S64x64x128 (shapeCast S64x8192
      (minsi (broadcastInDim S64x8192x1 ![] bcast_S_S64x8192x1 (constantI S_ 32 63#32))
        (maxsi (broadcastInDim S64x8192x1 ![] bcast_S_S64x8192x1 (constantI S_ 32 0#32)) (idsArg m c)))
      shapeCasts_S64x8192x1_S64x8192) shapeCasts_S64x8192_S64x64x128 := by
  dsimp only [Gen.V, Gen.V0]
  simp only [Gen.hostOps0, Gen.hostOps0_1, Gen.hostOps0_2, List.flatten_cons, List.flatten_nil, List.append_nil,
    List.cons_append, List.nil_append]
  after_results
  rfl

theorem V_t1 (c : Dev nD) : (V m c main_v4 : S64x256.Idx → EReal) = tableT m c := by
  dsimp only [Gen.V, Gen.V0]
  simp only [Gen.hostOps0, Gen.hostOps0_1, Gen.hostOps0_2, List.flatten_cons, List.flatten_nil, List.append_nil,
    List.cons_append, List.nil_append]
  after_results
  rfl

theorem V_t2 (c : Dev nD) : (V m c main_v7 : S64x256.Idx → EReal) = fun i => tableT m c i - tableT m c i := by
  dsimp only [Gen.V, Gen.V0]
  simp only [Gen.hostOps0, Gen.hostOps0_1, Gen.hostOps0_2, List.flatten_cons, List.flatten_nil, List.append_nil,
    List.cons_append, List.nil_append]
  after_results
  rfl

theorem V_t3 (c : Dev nD) : (V m c main_v10 : S64x256.Idx → EReal) =
    fun i => (tableT m c i - tableT m c i) - (tableT m c i - tableT m c i) := by
  dsimp only [Gen.V, Gen.V0]
  simp only [Gen.hostOps0, Gen.hostOps0_1, Gen.hostOps0_2, List.flatten_cons, List.flatten_nil, List.append_nil,
    List.cons_append, List.nil_append]
  after_results
  rfl

theorem V_bias (c : Dev nD) : (V m c main_v11 : S1x256.Idx → EReal) =
    shapeCast S1x256 (biasArg m c) shapeCasts_S256_S1x256 := by
  dsimp only [Gen.V, Gen.V0]
  simp only [Gen.hostOps0, Gen.hostOps0_1, Gen.hostOps0_2, List.flatten_cons, List.flatten_nil, List.append_nil,
    List.cons_append, List.nil_append]
  after_results
  rfl

/-! ## Read at one element -/

/-- The transposed table at (k, o) is W[o, k]. -/
theorem tableT_at (c : Dev nD) (i : S64x256.Idx) (k : Fin 64) (o : Fin 256) (h0 : (i 0).val = k.val)
    (h1 : (i 1).val = o.val) : tableT m c i = tableArg m c (ix2 o k) :=
  transpose_apply [1, 0] (tableArg m c) transposes_S256x64_S64x256_1_0 i (ix2 o k) (fun b => match b with
    | ⟨0, _⟩ => h0.symm
    | ⟨1, _⟩ => h1.symm)

/-- The laid-out ids at (p, t / 128, t % 128): the id (p, t) itself when it is in range. -/
theorem ids_at (c : Dev nD) (i : S64x64x128.Idx) (p : Fin 64) (t : Fin 8192) (h0 : (i 0).val = p.val)
    (h1 : (i 1).val = t.val / 128) (h2 : (i 2).val = t.val % 128)
    (hr : InRange (idsArg m c (ix3 p t (0 : Fin 1)))) :
    (V m c main_v2 : S64x64x128.Idx → BitVec 32) i = idsArg m c (ix3 p t (0 : Fin 1)) := by
  have hp : p.val < 64 := p.isLt
  have ht : t.val < 8192 := t.isLt
  rw [V_ids]
  refine (shapeCast_apply _ shapeCasts_S64x8192_S64x64x128 i (ix2 p t) ?_).trans ?_
  · rw [Shape.rowMajor_val_two, Shape.rowMajor_val_three]
    show p.val * 8192 + t.val = ((i 0).val * 64 + (i 1).val) * 128 + (i 2).val
    rw [h0, h1, h2]; omega
  refine (shapeCast_apply _ shapeCasts_S64x8192x1_S64x8192 (ix2 p t) (ix3 p t (0 : Fin 1)) ?_).trans ?_
  · rw [Shape.rowMajor_val_three, Shape.rowMajor_val_two]
    show (p.val * 8192 + t.val) * 1 + 0 = p.val * 8192 + t.val
    omega
  exact clip_id hr

/-- The bias row at (0, o) is b[o]. -/
theorem bias_at (c : Dev nD) (i : S1x256.Idx) (o : Fin 256) (h1 : (i 1).val = o.val) :
    (V m c main_v11 : S1x256.Idx → EReal) i = biasArg m c (ix1 o) := by
  rw [V_bias]
  refine shapeCast_apply _ shapeCasts_S256_S1x256 i (ix1 o) ?_
  have h0 : (i 0).val = 0 := by have h : (i 0).val < 1 := (i 0).isLt; omega
  rw [Shape.rowMajor_val_one, Shape.rowMajor_val_two]
  show o.val = (i 0).val * 256 + (i 1).val
  rw [h0, h1]; omega

end Cert.KernelIdeal.Entry

end
-- ==== Proof.KernelValue.lean ====
/-
  The kernel's result is the specification.

  The grid has 64 points, one per batch row p.  Point p stages block p of the laid-out ids, the three whole tables and
  the bias row, and writes back block p = rows [p, 0..8192, 0..256] of the [64, 8192, 256] output.  By the body's stored
  value, entry (p, t, o) is T1[id, o] + T2[id, o] + T3[id, o] + bias[0, o] with id = ids[p, t, 0]; T1 is the transposed
  table and, the table being finite, T2 = T3 = 0: the entry is W[o, id] + b[o].  The 64 blocks tile the output, so
  the whole array is that function; the host then inserts the unit axis.
-/
import proofs.«422011_j21354577396017_3_alg».proof.Proof.Gen.KernelIdeal.Frame
import proofs.«422011_j21354577396017_3_alg».proof.Proof.KernelPayload
import proofs.«422011_j21354577396017_3_alg».proof.Proof.KernelEntry

set_option maxRecDepth 16384

noncomputable section

namespace Cert.KernelIdeal.Result

open Cert.KernelIdeal Cert.KernelIdeal.Gen Cert.KernelIdeal.Payload Cert.KernelIdeal.Entry
open Idealize.ShloMosaic Idealize.ShloMosaic.TcCoe Idealize.SL.Sem Idealize.ShloMosaic.StableHlo
open Idealize.ShloMosaic.ValueIdx Cert.Embed
open Idealize.ShloMosaic.Pipeline (Dat)

/-! ## One point -/

/-- The region's output array as a function of the arguments: rows[p, t, o] = W[o, ids[p, t, 0]] + b[o]. -/
def rows (ids : IVec S64x8192x1 32) (W : FVec Ideal S256x64 .f32) (b : FVec Ideal S256 .f32) :
    FVec Ideal S64x8192x256 .f32 :=
  fun i => W (ix2 (i 2) (rowOf (ids (ix3 (i 0) (i 1) (0 : Fin 1))))) + b (ix1 (i 2))

/-- What the body stores at block index j is rows at (p, j 1, j 2), when the loaded blocks are: batch row p of the ids,
    the transposed table, two zero tables, and the bias row. -/
theorem point_eq (x0 : Vec Ideal S1x64x128 .i32) (x1 x2 x3 : Vec Ideal S64x256 .bf16) (x4 : Vec Ideal S1x256 .f32)
    (ids : IVec S64x8192x1 32) (W : FVec Ideal S256x64 .f32) (b : FVec Ideal S256 .f32) (p : Fin 64)
    (h0 : ∀ r : Fin 8192, x0 (idPos r) = ids (ix3 p r (0 : Fin 1)))
    (h1 : ∀ (k : Fin 64) (o : Fin 256), x1 (ix2 k o) = W (ix2 o k))
    (h2 : ∀ (k : Fin 64) (o : Fin 256), x2 (ix2 k o) = 0)
    (h3 : ∀ (k : Fin 64) (o : Fin 256), x3 (ix2 k o) = 0)
    (h4 : ∀ o : Fin 256, x4 (ix2 (0 : Fin 1) o) = b (ix1 o))
    (hr : ∀ i, InRange (ids i))
    (j : S1x8192x256.Idx) (i : S64x8192x256.Idx) (hi0 : (i 0).val = p.val) (hi1 : (i 1).val = (j 1).val)
    (hi2 : (i 2).val = (j 2).val) :
    k0_pay1 (F := Ideal) x0 x1 x2 x3 x4 j = rows ids W b i := by
  obtain ⟨z, r, o, rfl⟩ : ∃ (z : Fin 1) (r : Fin 8192) (o : Fin 256), j = ix3 z r o := ⟨j 0, j 1, j 2, eq_ix3 j⟩
  obtain rfl : z = 0 := Subsingleton.elim _ _
  have ei : i = ix3 p r o := by
    funext a; apply Fin.ext
    match a with
    | ⟨0, _⟩ => exact hi0
    | ⟨1, _⟩ => exact hi1
    | ⟨2, _⟩ => exact hi2
  subst ei
  have hlt : (x0 (idPos r)).toNat < 64 := by rw [h0]; exact (hr _).toNat_lt
  have hk : (⟨(x0 (idPos r)).toNat, hlt⟩ : Fin 64) = rowOf (ids (ix3 p r (0 : Fin 1))) := by
    apply Fin.ext
    show (x0 (idPos r)).toNat = (ids (ix3 p r (0 : Fin 1))).toNat % 64
    rw [h0 r, Nat.mod_eq_of_lt (hr _).toNat_lt]
  rw [pay_at x0 x1 x2 x3 x4 r o hlt, hk, h1, h2, h3, h4, add_zero, add_zero]
  rfl

/-! ## The points' blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the id block and the output block move together along the batch axis and
    sit at block 0 on the others; the tables and the bias row are always block (0, 0). -/
theorem idx_facts : ∀ t : Fin cfg0.N,
    win0_0.index t (0 : Fin 3) = win0_5.index t (0 : Fin 3) ∧ win0_0.index t (1 : Fin 3) = 0
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 3) = 0 ∧ win0_5.index t (2 : Fin 3) = 0 ∧ win0_5.index t (0 : Fin 3) < 64 :=
  (by decide +kernel : ∀ t : Fin grid0.N, _)

/-- Every batch row is some point's block. -/
theorem idx_onto : ∀ q : Fin 64, ∃ t : Fin cfg0.N, win0_5.index t = ![q.val, 0, 0] :=
  (by decide +kernel : ∀ q : Fin 64, ∃ t : Fin grid0.N, win0_5.index t = ![q.val, 0, 0])

variable (m : (ℓ : Loc nD τ sig) → Buf (Elt Ideal) ℓ) (ρ : Dev nD → PrngReg)

/-- What point t writes back is block t of rows of the arguments. -/
theorem flushed_eq (c : Dev nD)
    (hfin : ∀ i, tableArg m c i ≠ ⊤ ∧ tableArg m c i ≠ ⊥) (hr : ∀ i, InRange (idsArg m c i)) (t : Fin cfg0.N) :
    (dats m 0 c).flushed 5 t
      = ((cfg0.win 5).blk t).view.read (Elt Ideal) (rows (idsArg m c) (tableArg m c) (biasArg m c)) := by
  show (cfg0.win 5).cut (grid0.coords t) ((dats m 0 c).after 5 t) = _
  rw [after0_5]
  unfold out0_5
  rw [View.canon_unit_zero hz3]
  simp only [View.ld_unit_zero (S := S1x64x128) hz3, View.ld_unit_zero (S := S64x256) hz2,
    View.ld_unit_zero (S := S1x256) hz2]
  obtain ⟨e00, e01, e02, e10, e11, e20, e21, e30, e31, e40, e41, e51, e52, e5lt⟩ := idx_facts t
  funext j
  show k0_pay1 (F := Ideal) (iblk m c 0 t) (iblk m c 1 t) (iblk m c 2 t) (iblk m c 3 t) (iblk m c 4 t) j
    = rows (idsArg m c) (tableArg m c) (biasArg m c) (((cfg0.win 5).blk t).view.emb j)
  have hT : ∀ (i : S64x256.Idx), tableT m c i - tableT m c i = 0 := fun i => by
    rw [tableT_at m c i (i 0) (i 1) rfl rfl]
    exact sub_self_of_ne (hfin _).1 (hfin _).2
  refine point_eq (iblk m c 0 t) (iblk m c 1 t) (iblk m c 2 t) (iblk m c 3 t) (iblk m c 4 t)
    (idsArg m c) (tableArg m c) (biasArg m c) (⟨win0_5.index t (0 : Fin 3), e5lt⟩ : Fin 64)
    (fun r => ?_) (fun k o => ?_) (fun k o => ?_) (fun k o => ?_) (fun o => ?_) hr j _ ?_ ?_ ?_
  · show (V m c main_v2 : S64x64x128.Idx → BitVec 32) (((cfg0.win 0).blk t).view.emb (idPos r)) = _
    refine ids_at m c _ (⟨win0_5.index t (0 : Fin 3), e5lt⟩ : Fin 64) r ?_ ?_ ?_ (hr _)
    · show win0_0.index t (0 : Fin 3) * 1 + 1 * 0 = win0_5.index t (0 : Fin 3); omega
    · show win0_0.index t (1 : Fin 3) * 64 + 1 * (r.val / 128) = r.val / 128; omega
    · show win0_0.index t (2 : Fin 3) * 128 + 1 * (r.val % 128) = r.val % 128; omega
  · show (V m c main_v4 : S64x256.Idx → EReal) (((cfg0.win 1).blk t).view.emb (ix2 k o)) = _
    rw [V_t1]
    refine tableT_at m c _ k o ?_ ?_
    · show win0_1.index t (0 : Fin 2) * 64 + 1 * k.val = k.val; omega
    · show win0_1.index t (1 : Fin 2) * 256 + 1 * o.val = o.val; omega
  · show (V m c main_v7 : S64x256.Idx → EReal) (((cfg0.win 2).blk t).view.emb (ix2 k o)) = _
    rw [V_t2]
    exact hT _
  · show (V m c main_v10 : S64x256.Idx → EReal) (((cfg0.win 3).blk t).view.emb (ix2 k o)) = _
    rw [V_t3]
    show (tableT m c _ - tableT m c _) - (tableT m c _ - tableT m c _) = 0
    rw [hT, sub_zero]
  · show (V m c main_v11 : S1x256.Idx → EReal) (((cfg0.win 4).blk t).view.emb (ix2 (0 : Fin 1) o)) = _
    refine bias_at m c _ o ?_
    show win0_4.index t (1 : Fin 2) * 256 + 1 * o.val = o.val; omega
  · have hj : (j 0).val < 1 := (j 0).isLt
    show win0_5.index t (0 : Fin 3) * 1 + 1 * (j 0).val = win0_5.index t (0 : Fin 3); omega
  · show win0_5.index t (1 : Fin 3) * 8192 + 1 * (j 1).val = (j 1).val; omega
  · show win0_5.index t (2 : Fin 3) * 256 + 1 * (j 2).val = (j 2).val; omega

/-- An index of the output is in point t's block iff each coordinate is in the block's range on its axis. -/
theorem mem_blk (t : Fin cfg0.N) (i : S64x8192x256.Idx) :
    i ∈ ((cfg0.win 5).blk t).view.set ↔ ∀ a : Fin 3, win0_5.index t a * S1x8192x256.size a ≤ (i a).val
      ∧ (i a).val < win0_5.index t a * S1x8192x256.size a + S1x8192x256.size a := by
  show i ∈ ((View.whole main_v12).slice (win0_5.rect t)).set ↔ _
  rw [View.set_slice_whole, Rect.mem_set_unit]
  exact Iff.rfl

/-- The 64 blocks tile the output. -/
theorem cover (i : S64x8192x256.Idx) :
    ∃ t : Fin cfg0.N, (cfg0.win 5).flush t = true ∧ i ∈ ((cfg0.win 5).blk t).view.set := by
  have hi0 : (i 0).val < 64 := (i 0).isLt
  have hi1 : (i 1).val < 8192 := (i 1).isLt
  have hi2 : (i 2).val < 256 := (i 2).isLt
  obtain ⟨t, ht⟩ := idx_onto ⟨(i 0).val, hi0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1; omega
  | ⟨1, _⟩ =>
    show win0_5.index t (1 : Fin 3) * 8192 ≤ (i 1).val ∧ (i 1).val < win0_5.index t (1 : Fin 3) * 8192 + 8192; omega
  | ⟨2, _⟩ =>
    show win0_5.index t (2 : Fin 3) * 256 ≤ (i 2).val ∧ (i 2).val < win0_5.index t (2 : Fin 3) * 256 + 256; omega

/-- The output array after the region. -/
theorem final (c : Dev nD)
    (hfin : ∀ i, tableArg m c i ≠ ⊤ ∧ tableArg m c i ≠ ⊥) (hr : ∀ i, InRange (idsArg m c i)) :
    (dats m 0 c).arrAt 5 cfg0.N = rows (idsArg m c) (tableArg m c) (biasArg m c) :=
  (dats m 0 c).arrAt_eq_of_cover 5 (rows (idsArg m c) (tableArg m c) (biasArg m c))
    (fun t _ => flushed_eq m c hfin hr t) cover

/-! ## The host line after the region, and the run -/

/-- Inserting the unit axis into rows gives the specification. -/
theorem unsqueeze_rows (ids : IVec S64x8192x1 32) (W : FVec Ideal S256x64 .f32) (b : FVec Ideal S256 .f32) :
    broadcastInDim S64x8192x1x256 ![0, 1, 3] bcast_S64x8192x256_S64x8192x1x256_0_1_3 (rows ids W b)
      = embed ids W b := by
  funext i
  refine (broadcastInDim_apply _ bcast_S64x8192x256_S64x8192x1x256_0_1_3 (rows ids W b) i
    (ix3 (⟨(i 0).val, (i 0).isLt⟩ : Fin 64) (⟨(i 1).val, (i 1).isLt⟩ : Fin 8192) (⟨(i 3).val, (i 3).isLt⟩ : Fin 256))
    (fun a => match a with
      | ⟨0, _⟩ => by show (i 0).val = if (64 : Nat) = 1 then 0 else (i 0).val; rw [if_neg (by decide)]
      | ⟨1, _⟩ => by show (i 1).val = if (8192 : Nat) = 1 then 0 else (i 1).val; rw [if_neg (by decide)]
      | ⟨2, _⟩ => by show (i 3).val = if (256 : Nat) = 1 then 0 else (i 3).val; rw [if_neg (by decide)])).trans ?_
  rfl

/-- The program's result: the host line after the region applied to the region's output array. -/
theorem tail_eq (c : Dev nD)
    (hfin : ∀ i, tableArg m c i ≠ ⊤ ∧ tableArg m c i ≠ ⊥) (hr : ∀ i, InRange (idsArg m c i)) :
    (Pipeline.afterTail₀ cfgs (dats m) 0 (V0 m) [hostOps1] c main_v13 : S64x8192x1x256.Idx → EReal)
      = embed (idsArg m c) (tableArg m c) (biasArg m c) := by
  unfold Pipeline.afterTail₀
  show StableHlo.after hostOps1 _ (Proc.devRef .tc main_v13) = _
  after_results
  have hw : (Pipeline.withArrays (cfgs 0).spec c (V0 m c) (fun w => (dats m 0 c).arrAt w (cfgs 0).N)
      (Proc.devRef .tc main_v12) : S64x8192x256.Idx → EReal) = rows (idsArg m c) (tableArg m c) (biasArg m c) :=
    (Pipeline.withArrays_arr spec0 launch0.win.arr_inj c _ _ 5).trans (final m c hfin hr)
  rw [hw]
  exact unsqueeze_rows _ _ _

/-- Every weakly fair execution of the kernel's program ends with the result at the specification of the arguments,
    and the arguments unchanged, when the table is finite and the class ids are in range. -/
theorem run (hfin : ∀ c i, tableArg m c i ≠ ⊤ ∧ tableArg m c i ≠ ⊥) (hr : ∀ c i, InRange (idsArg m c i)) :
    θ_run defs (onTc (τ := τ) (main (F := Ideal))) ⟨m, fun _ => 0, ρ⟩ fun r => ∀ c : Dev nD,
      r.2.mem ((c.tc : Thread nD τ).loc main_v13) = embed (idsArg m c) (tableArg m c) (biasArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v13 (Pipeline.mem_restRefs_of main_v13 (by decide) (by decide))).trans (tail_eq m c (hfin c) (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  An embedding lookup written as a one-hot matmul, against the same lookup written as an index into the table.

  Claimed: both programs run and leave their arguments unchanged, and at the ideal values they end with the same
  result, for every finite table W : [256, 64], finite bias b : [256] and class ids : [64, 8192, 1] in [0, 64):
      out[p, t, 0, o] = W[o, ids[p, t, 0]] + b[o].
  The kernel clips each id to [0, 63], builds the exact 0/1 row of its class and multiplies it with three terms of W.T
  (W.T itself and two residuals W.T - W.T and (W.T - W.T) - (W.T - W.T), the changes of float format between them being
  the identity on extended reals): the row picks one entry of each term, the residuals vanish because the table is
  finite, and the bias is added.  The reference wraps a negative id, indexes W.T with a clamp, and adds the bias.  On
  ids in [0, 64) the clip, the wrap and the clamp are the identity.  (Outside that range the two guards differ: an id of
  -1 selects class 63 on one side and class 0 on the other; the range is part of the precondition.)

  The kernel's and the idealized kernel's frames are the generated ones; the reference's frame and value come from its
  generated run; nothing was rewritten between the kernel and its idealization.
-/
import proofs.«422011_j21354577396017_3_alg».proof.Defs
import proofs.«422011_j21354577396017_3_alg».proof.Proof.Gen.Kernel
import proofs.«422011_j21354577396017_3_alg».proof.Proof.Gen.Kernel.Skeleton
import proofs.«422011_j21354577396017_3_alg».proof.Proof.Gen.Kernel.Launch
import proofs.«422011_j21354577396017_3_alg».proof.Proof.Gen.Kernel.Points
import proofs.«422011_j21354577396017_3_alg».proof.Proof.Gen.Kernel.Frame
import proofs.«422011_j21354577396017_3_alg».proof.Proof.Gen.KernelIdeal
import proofs.«422011_j21354577396017_3_alg».proof.Proof.Gen.KernelIdeal.Skeleton
import proofs.«422011_j21354577396017_3_alg».proof.Proof.Gen.KernelIdeal.Launch
import proofs.«422011_j21354577396017_3_alg».proof.Proof.Gen.KernelIdeal.Points
import proofs.«422011_j21354577396017_3_alg».proof.Proof.Gen.KernelIdeal.Frame
import proofs.«422011_j21354577396017_3_alg».proof.Proof.Gen.ReferenceIdeal
import proofs.«422011_j21354577396017_3_alg».proof.Proof.Gen.ReferenceIdeal.Run
import proofs.«422011_j21354577396017_3_alg».proof.Proof.Gen.ReferenceIdeal.Read
import proofs.«422011_j21354577396017_3_alg».proof.Proof.Gen.Pre_finite_inputs
import proofs.«422011_j21354577396017_3_alg».proof.Proof.PreFacts
import proofs.«422011_j21354577396017_3_alg».proof.Proof.RefValue
import proofs.«422011_j21354577396017_3_alg».proof.Proof.KernelValue
import Idealize.ShloMosaic.Adequacy
import Idealize.ShloMosaic.Init

noncomputable section

namespace Cert.Proof

open Idealize.ShloMosaic Idealize.SL.Sem Cert.Embed

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the specification of the arguments: the kernel's by its run read off the frame, the
    reference's by its generated run; the precondition supplies the finite table and the ids' range. -/
theorem algebraic : Cert.algebraic_KernelIdeal_ReferenceIdeal := by
  intro m ρ m' ρ' hpre hagree
  have hf := fun c => facts_of_pre _ _ _ (hpre c)
  refine ⟨fun c => embed (Cert.KernelIdeal.Entry.idsArg m c) (Cert.KernelIdeal.Entry.tableArg m c)
      (Cert.KernelIdeal.Entry.biasArg m c),
    Cert.KernelIdeal.Result.run m ρ (fun c => (hf c).1) (fun c => (hf c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, (hagree c).1, (hagree c).2.1, (hagree c).2.2]
  exact Cert.ReferenceIdeal.RefValue.result_eq _ _ _ (hf c).2

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
